-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S8x2048x5632 : Shape := ⟨3, ![8, 2048, 5632]⟩
abbrev S8x5632x2048 : Shape := ⟨3, ![8, 5632, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S8x2048x5632 : S_.BroadcastsInDim S8x2048x5632 (![] : Fin 0 → Fin S8x2048x5632.rank)
  reducesTo_S8x2048x5632_S_d0_1_2 : S8x2048x5632.ReducesTo [0, 1, 2] S_
  bcast_S_S8x5632x2048 : S_.BroadcastsInDim S8x5632x2048 (![] : Fin 0 → Fin S8x5632x2048.rank)
  reducesTo_S8x5632x2048_S_d0_1_2 : S8x5632x2048.ReducesTo [0, 1, 2] S_

variable [Facts]

def fn_part1 {F : FTy → Type} [FloatOps F] (main_v13 : IVec S_ 1) (main_v16 : IVec S8x2048x5632 1) : IVec S_ 1 :=
  let main_c_5 : IVec S_ 1 := constantI S_ 1 1#1
  let main_v17 : IVec S_ 1 := (fun x v => Host.reduce IntOp.andi x v reducesTo_S8x2048x5632_S_d0_1_2 h_S_) main_v16 main_c_5
  let main_v18 : IVec S_ 1 := andi main_v13 main_v17
  main_v18

def fn {F : FTy → Type} [FloatOps F] (main_arg0 : FVec F S16384x2048 .f32) (main_arg1 : FVec F S8x2048x5632 .f32) (main_arg2 : FVec F S8x5632x2048 .f32) (main_arg3 : FVec F S8x2048x5632 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S8x2048x5632 .f32 := Host.absf main_arg1
  let main_cst_0 : FVec F S_ .f32 := constant S_ .f32 0x7F800000#32
  let main_v5 : FVec F S8x2048x5632 .f32 := broadcastInDim S8x2048x5632 ![] bcast_S_S8x2048x5632 main_cst_0
  let main_v6 : IVec S8x2048x5632 1 := cmpf .olt main_v4 main_v5
  let main_c_1 : IVec S_ 1 := constantI S_ 1 1#1
  let main_v7 : IVec S_ 1 := (fun x v => Host.reduce IntOp.andi x v reducesTo_S8x2048x5632_S_d0_1_2 h_S_) main_v6 main_c_1
  let main_v8 : IVec S_ 1 := andi main_v3 main_v7
  let main_v9 : FVec F S8x5632x2048 .f32 := Host.absf main_arg2
  let main_cst_2 : FVec F S_ .f32 := constant S_ .f32 0x7F800000#32
  let main_v10 : FVec F S8x5632x2048 .f32 := broadcastInDim S8x5632x2048 ![] bcast_S_S8x5632x2048 main_cst_2
  let main_v11 : IVec S8x5632x2048 1 := cmpf .olt main_v9 main_v10
  let main_c_3 : IVec S_ 1 := constantI S_ 1 1#1
  let main_v12 : IVec S_ 1 := (fun x v => Host.reduce IntOp.andi x v reducesTo_S8x5632x2048_S_d0_1_2 h_S_) main_v11 main_c_3
  let main_v13 : IVec S_ 1 := andi main_v8 main_v12
  let main_v14 : FVec F S8x2048x5632 .f32 := Host.absf main_arg3
  let main_cst_4 : FVec F S_ .f32 := constant S_ .f32 0x7F800000#32
  let main_v15 : FVec F S8x2048x5632 .f32 := broadcastInDim S8x2048x5632 ![] bcast_S_S8x2048x5632 main_cst_4
  let main_v16 : IVec S8x2048x5632 1 := cmpf .olt main_v14 main_v15
  fn_part1 (F := F) main_v13 main_v16
-- ==== Kernel.lean ====
abbrev S16384x2048 : Shape := ⟨2, ![16384, 2048]⟩
abbrev S8x2048x5632 : Shape := ⟨3, ![8, 2048, 5632]⟩
abbrev S8x5632x2048 : Shape := ⟨3, ![8, 5632, 2048]⟩
abbrev S8x2048x2048 : Shape := ⟨3, ![8, 2048, 2048]⟩
abbrev S1x512x2048 : Shape := ⟨3, ![1, 512, 2048]⟩
abbrev S1x2048x128 : Shape := ⟨3, ![1, 2048, 128]⟩
abbrev S1x128x2048 : Shape := ⟨3, ![1, 128, 2048]⟩
abbrev S512x2048 : Shape := ⟨2, ![512, 2048]⟩
abbrev S2048x128 : Shape := ⟨2, ![2048, 128]⟩
abbrev S512x128 : Shape := ⟨2, ![512, 128]⟩
abbrev S128x2048 : Shape := ⟨2, ![128, 2048]⟩

abbrev nBuf : Space → Nat
  | .hbm => 7
  | .vmem => 11
  | .smem => 0
  | _ => 0

abbrev bufTy : (tb : Table) → Fin (tcTables nBuf tb) → BufTy
  | .hbm, ⟨0, _⟩ => ⟨S16384x2048, .f32⟩
  | .hbm, ⟨1, _⟩ => ⟨S8x2048x5632, .f32⟩
  | .hbm, ⟨2, _⟩ => ⟨S8x5632x2048, .f32⟩
  | .hbm, ⟨3, _⟩ => ⟨S8x2048x5632, .f32⟩
  | .hbm, ⟨4, _⟩ => ⟨S8x2048x2048, .f32⟩
  | .hbm, ⟨5, _⟩ => ⟨S8x2048x2048, .f32⟩
  | .hbm, ⟨6, _⟩ => ⟨S16384x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x128x2048, .f32⟩
  | .local _ .vmem, ⟨7, _⟩ => ⟨S1x128x2048, .f32⟩
  | .local _ .vmem, ⟨8, _⟩ => ⟨S1x512x2048, .f32⟩
  | .local _ .vmem, ⟨9, _⟩ => ⟨S1x512x2048, .f32⟩
  | .local _ .vmem, ⟨10, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 44], ![false, false, false]⟩

def k0_cond2 (i : grid0.Coords) : BitVec 1 :=
  let arg2 : BitVec 32 := BitVec.ofNat 32 (i 2).val
  let c43_i32 : BitVec 32 := 43#32
  let v27 : BitVec 1 := Scalar.cmpi .eq arg2 c43_i32
  let v28 : BitVec 32 := Scalar.extui v27
  let c0_i32_18 : BitVec 32 := 0#32
  let v29 : BitVec 1 := Scalar.cmpi .ne v28 c0_i32_18
  v29

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S16384x2048_S8x2048x2048 : S16384x2048.ShapeCasts S8x2048x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  bitsLt_bf16_f32 : FTy.bits .bf16 < FTy.bits .f32
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S1x128x2048_S1x128x2048_0_0_0 : ∀ a, (![0, 0, 0] : Fin 3 → Nat) a + S1x128x2048.size a ≤ S1x128x2048.size a
  h_S1x128x2048 : 0 < S1x128x2048.numel
  shapeCasts_S1x128x2048_S128x2048 : S1x128x2048.ShapeCasts S128x2048
  shapeCasts_S512x2048_S1x512x2048 : S512x2048.ShapeCasts S1x512x2048
  shapeCasts_S8x2048x2048_S16384x2048 : S8x2048x2048.ShapeCasts S16384x2048
  dot_S512x2048_S2048x128_S512x128_1_0_0_1_n_n_wf : DotDims.WF S512x2048 S2048x128 S512x128 [1] [0] [0] [1] [] []
  dot_S512x128_S128x2048_S512x2048_1_0_0_1_n_n_wf : DotDims.WF S512x128 S128x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S8x2048x2048.size a
  hwx0_0 : ∀ i : grid0.Coords, EltTy.bits .f32 = 32 ∨ (Rect.block (s := S8x2048x2048) S1x512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S8x2048x5632.size a
  hwx0_1 : ∀ i : grid0.Coords, EltTy.bits .f32 = 32 ∨ (Rect.block (s := S8x2048x5632) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S8x2048x5632.size a
  hwx0_2 : ∀ i : grid0.Coords, EltTy.bits .f32 = 32 ∨ (Rect.block (s := S8x2048x5632) S1x2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x2048.size a ≤ S8x5632x2048.size a
  hwx0_3 : ∀ i : grid0.Coords, EltTy.bits .f32 = 32 ∨ (Rect.block (s := S8x5632x2048) S1x128x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x2048.size a ≤ S8x2048x2048.size a
  hwx0_4 : ∀ i : grid0.Coords, EltTy.bits .f32 = 32 ∨ (Rect.block (s := S8x2048x2048) S1x512x2048.size (cc0_transform_4 i) (hinb0_4 i)).WholeWords (EltTy.packing .f32)

variable [Facts₀]

def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf
def dot_S512x128_S128x2048_S512x2048_1_0_0_1_n_n : DotDims S512x128 S128x2048 S512x2048 where
  lhsContracting := [1]
  rhsContracting := [0]
  lhsNonContracting := [0]
  rhsNonContracting := [1]
  lhsBatch := []
  rhsBatch := []
  wf := dot_S512x128_S128x2048_S512x2048_1_0_0_1_n_n_wf

abbrev win0_0 : Pipeline.Window sig grid0 :=
  Pipeline.Window.ofSpec (Memref.whole main_v0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x128x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16384x2048 : Shape := ⟨2, ![16384, 2048]⟩
abbrev S8x2048x5632 : Shape := ⟨3, ![8, 2048, 5632]⟩
abbrev S8x5632x2048 : Shape := ⟨3, ![8, 5632, 2048]⟩
abbrev S8x2048x2048 : Shape := ⟨3, ![8, 2048, 2048]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S8x2048x5632, .f32⟩
  | .hbm, ⟨2, _⟩ => ⟨S8x5632x2048, .f32⟩
  | .hbm, ⟨3, _⟩ => ⟨S8x2048x5632, .f32⟩
  | .hbm, ⟨4, _⟩ => ⟨S8x2048x2048, .f32⟩
  | .hbm, ⟨5, _⟩ => ⟨S8x2048x5632, .f32⟩
  | .hbm, ⟨6, _⟩ => ⟨S8x2048x5632, .f32⟩
  | .hbm, ⟨7, _⟩ => ⟨S8x2048x5632, .f32⟩
  | .hbm, ⟨8, _⟩ => ⟨S8x2048x5632, .f32⟩
  | .hbm, ⟨9, _⟩ => ⟨S_, .f32⟩
  | .hbm, ⟨10, _⟩ => ⟨S8x2048x5632, .f32⟩
  | .hbm, ⟨11, _⟩ => ⟨S8x2048x5632, .f32⟩
  | .hbm, ⟨12, _⟩ => ⟨S_, .f32⟩
  | .hbm, ⟨13, _⟩ => ⟨S8x2048x5632, .f32⟩
  | .hbm, ⟨14, _⟩ => ⟨S8x2048x5632, .f32⟩
  | .hbm, ⟨15, _⟩ => ⟨S8x2048x5632, .f32⟩
  | .hbm, ⟨16, _⟩ => ⟨S8x2048x5632, .f32⟩
  | .hbm, ⟨17, _⟩ => ⟨S8x2048x2048, .f32⟩
  | .hbm, ⟨18, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩

abbrev nD : Nat := 1
abbrev τ : Topo := Topo.v7x

variable {F : FTy → Type} [FloatOps F]

class Facts₀ : Prop where
  shapeCasts_S16384x2048_S8x2048x2048 : S16384x2048.ShapeCasts S8x2048x2048
  bcast_S_S8x2048x5632 : S_.BroadcastsInDim S8x2048x5632 (![] : Fin 0 → Fin S8x2048x5632.rank)
  shapeCasts_S8x2048x2048_S16384x2048 : S8x2048x2048.ShapeCasts S16384x2048
  dot_S8x2048x2048_S8x2048x5632_S8x2048x5632_2_1_1_2_0_0_wf : DotDims.WF S8x2048x2048 S8x2048x5632 S8x2048x5632 [2] [1] [1] [2] [0] [0]
  dot_S8x2048x5632_S8x5632x2048_S8x2048x2048_2_1_1_2_0_0_wf : DotDims.WF S8x2048x5632 S8x5632x2048 S8x2048x2048 [2] [1] [1] [2] [0] [0]

variable [Facts₀]

def dot_S8x2048x2048_S8x2048x5632_S8x2048x5632_2_1_1_2_0_0 : DotDims S8x2048x2048 S8x2048x5632 S8x2048x5632 where
  lhsContracting := [2]
  rhsContracting := [1]
  lhsNonContracting := [1]
  rhsNonContracting := [2]
  lhsBatch := [0]
  rhsBatch := [0]
  wf := dot_S8x2048x2048_S8x2048x5632_S8x2048x5632_2_1_1_2_0_0_wf
def dot_S8x2048x5632_S8x5632x2048_S8x2048x2048_2_1_1_2_0_0 : DotDims S8x2048x5632 S8x5632x2048 S8x2048x2048 where
  lhsContracting := [2]
  rhsContracting := [1]
  lhsNonContracting := [1]
  rhsNonContracting := [2]
  lhsBatch := [0]
  rhsBatch := [0]
  wf := dot_S8x2048x5632_S8x5632x2048_S8x2048x2048_2_1_1_2_0_0_wf

class Facts : Prop extends Facts₀ where

variable [Facts]
-- ==== Proof.Spec.lean ====
import Idealize.ShloMosaic.PureOps.Ideal
import Idealize.ShloMosaic.Lib.ValueIdx

/-!
  The gated feed-forward layer of eight experts, as ONE function of its four arrays, entry by entry, over the
  extended reals. Expert `e` maps its 2048 rows `x[e, g, ·]` (width 2048) to

      out[e, g, q] = ∑ f < 5632, (a · logistic a · b) · w2[e, f, q],
      a = ∑ d < 2048, x[e, g, d] · w1[e, d, f],   b = ∑ d < 2048, x[e, g, d] · w3[e, d, f].

  The hidden axis of 5632 columns is 44 tiles of 128: column `128 · j + k`. A sum over the hidden axis is the sum
  over the tiles of the tiles' sums (`sum_tiles`), and the tiles' sums added one at a time, first to last, starting from
  zero, reach that sum (`upTo_zero`, `upTo_succ`, `upTo_last`). Addition of extended reals is commutative and
  associative, so none of this asks the terms to be finite.
-/

open scoped BigOperators

noncomputable section

namespace Cert.GatedFfn

open Idealize.ShloMosaic Idealize.ShloMosaic.ValueIdx

/-- Rows per expert by model width: the activations going in and the result. -/
abbrev ActS : Shape := ⟨3, ![8, 2048, 2048]⟩
/-- Model width by hidden width, per expert: the two up-projection weights. -/
abbrev UpS : Shape := ⟨3, ![8, 2048, 5632]⟩
/-- Hidden width by model width, per expert: the down-projection weight. -/
abbrev DownS : Shape := ⟨3, ![8, 5632, 2048]⟩

/-- One entry of an up projection: row `g` of expert `e` against column `f` of that expert's weight. -/
def proj (x : ActS.Idx → EReal) (w : UpS.Idx → EReal) (e : Fin 8) (g : Fin 2048) (f : Fin 5632) : EReal :=
  ∑ d : Fin 2048, x (ix3 e g d) * w (ix3 e d f)

/-- The hidden activation: `a · logistic a` of the gate projection `a`, times the other projection. -/
def hidden (x : ActS.Idx → EReal) (w1 w3 : UpS.Idx → EReal) (e : Fin 8) (g : Fin 2048) (f : Fin 5632) : EReal :=
  proj x w1 e g f * Ideal.logistic (proj x w1 e g f) * proj x w3 e g f

/-- Hidden column `f`'s term of the down projection at result entry `(e, g, q)`. -/
def term (x : ActS.Idx → EReal) (w1 w3 : UpS.Idx → EReal) (w2 : DownS.Idx → EReal) (e : Fin 8) (g q : Fin 2048)
    (f : Fin 5632) : EReal :=
  hidden x w1 w3 e g f * w2 (ix3 e f q)

/-- The layer at result entry `(e, g, q)`. -/
def outAt (x : ActS.Idx → EReal) (w1 w3 : UpS.Idx → EReal) (w2 : DownS.Idx → EReal) (e : Fin 8) (g q : Fin 2048) : EReal :=
  ∑ f : Fin 5632, term x w1 w3 w2 e g q f

/-- The layer: the whole result array. -/
def out (x : ActS.Idx → EReal) (w1 w3 : UpS.Idx → EReal) (w2 : DownS.Idx → EReal) : ActS.Idx → EReal :=
  fun i => outAt x w1 w3 w2 (i 0) (i 1) (i 2)

/-- The rows of all experts stacked: what both programs take and return. -/
abbrev RowsS : Shape := ⟨2, ![16384, 2048]⟩

/-- The whole computation: the 16384 rows split into eight experts' 2048 rows, the layer, and the rows stacked again. -/
def whole (a0 : RowsS.Idx → EReal) (w1 w3 : UpS.Idx → EReal) (w2 : DownS.Idx → EReal) : RowsS.Idx → EReal :=
  shapeCast RowsS (out (shapeCast ActS a0 (by decide)) w1 w3 w2) (by decide)

/-! ## The hidden axis in tiles -/

/-- Hidden column `k` of tile `j`. -/
def col (j : Fin 44) (k : Fin 128) : Fin 5632 := ⟨128 * j.val + k.val, by omega⟩

/-- Row `p` of row tile `r` (four tiles of 512 rows per expert). -/
def row (r : Fin 4) (p : Fin 512) : Fin 2048 := ⟨512 * r.val + p.val, by omega⟩

/-- Tile `j`'s share of the down projection at `(e, g, q)`. -/
def tileSum (x : ActS.Idx → EReal) (w1 w3 : UpS.Idx → EReal) (w2 : DownS.Idx → EReal) (e : Fin 8) (g q : Fin 2048)
    (j : Fin 44) : EReal :=
  ∑ k : Fin 128, term x w1 w3 w2 e g q (col j k)

/-- A sum over the hidden axis is the sum over the tiles of each tile's sum. -/
theorem sum_tiles {M : Type*} [AddCommMonoid M] (T : Fin 5632 → M) :
    ∑ j : Fin 44, ∑ k : Fin 128, T (col j k) = ∑ f : Fin 5632, T f := by
  have h := Equiv.sum_comp (finProdFinEquiv (m := 44) (n := 128)) (fun f : Fin (44 * 128) => T ⟨f.val, f.isLt⟩)
  rw [Fintype.sum_prod_type] at h
  refine Eq.trans ?_ h
  refine Finset.sum_congr rfl fun j _ => Finset.sum_congr rfl fun k _ => congrArg T (Fin.ext ?_)
  show 128 * j.val + k.val = (finProdFinEquiv (j, k)).val
  rw [finProdFinEquiv_apply_val]
  exact Nat.add_comm _ _

/-- The tiles' values added up to and including tile `n`. -/
def upTo {M : Type*} [AddCommMonoid M] (P : Fin 44 → M) (n : ℕ) (hn : n < 44) : M :=
  ∑ j : Fin (n + 1), P ⟨j.val, by have := j.isLt; omega⟩

theorem upTo_zero {M : Type*} [AddCommMonoid M] (P : Fin 44 → M) (h : 0 < 44) : upTo P 0 h = 0 + P ⟨0, h⟩ := by
  unfold upTo
  rw [Fin.sum_univ_one]
  exact (zero_add _).symm

theorem upTo_succ {M : Type*} [AddCommMonoid M] (P : Fin 44 → M) (n : ℕ) (hn : n + 1 < 44) :
    upTo P (n + 1) hn = upTo P n (Nat.lt_of_succ_lt hn) + P ⟨n + 1, hn⟩ := by
  unfold upTo
  rw [Fin.sum_univ_castSucc]
  rfl

theorem upTo_last {M : Type*} [AddCommMonoid M] (P : Fin 44 → M) (h : 43 < 44) : upTo P 43 h = ∑ j : Fin 44, P j := by
  unfold upTo
  rfl

/-- All 44 tiles' shares, added first to last, are the layer's entry. -/
theorem upTo_tileSum_last (x : ActS.Idx → EReal) (w1 w3 : UpS.Idx → EReal) (w2 : DownS.Idx → EReal) (e : Fin 8)
    (g q : Fin 2048) (h : 43 < 44) : upTo (tileSum x w1 w3 w2 e g q) 43 h = outAt x w1 w3 w2 e g q := by
  rw [upTo_last]
  exact sum_tiles (term x w1 w3 w2 e g q)

end Cert.GatedFfn

end
-- ==== Proof.RefValue.lean ====
import proofs.«182208_j1889785610412_1_alg».proof.Proof.Gen.ReferenceIdeal.Read
import proofs.«182208_j1889785610412_1_alg».proof.Proof.Spec

/-!
  The reference, read entry by entry at the ideal values, is the layer of Spec.lean. Its two up projections are the
  batched products `∑ d, x[e, g, d] · w[e, d, f]`; its activation multiplies the gate projection `a` by
  `1 / (1 + exp (−a))`, which is the logistic function of `a` by definition; its down projection sums the hidden
  terms over all 5632 columns.
-/

open scoped BigOperators

noncomputable section

namespace Cert.GatedFfn.Ref

open Cert.ReferenceIdeal Cert.ReferenceIdeal.Read Idealize.ShloMosaic Idealize.ShloMosaic.ValueIdx Cert.GatedFfn

/-- The word of `1.0` denotes the extended real one. -/
theorem one_f32 : Ideal.ofBits .f32 0x3F800000#32 = 1 := IdealRules.sign_bit.ideal_onePat .f32

/-- The operand entries a projection's term `d` multiplies: `x[e, g, d]` and `w[e, d, f]`. -/
theorem lidx_up (e : Fin 8) (g : Fin 2048) (f : Fin 5632) (d : Fin 2048) : lidx_main_v1 (ix3 e g f) d = ix3 e g d :=
  funext fun a => match a with | ⟨0, _⟩ => rfl | ⟨1, _⟩ => rfl | ⟨2, _⟩ => rfl
theorem ridx_up (e : Fin 8) (g : Fin 2048) (f : Fin 5632) (d : Fin 2048) : ridx_main_v1 (ix3 e g f) d = ix3 e d f :=
  funext fun a => match a with | ⟨0, _⟩ => rfl | ⟨1, _⟩ => rfl | ⟨2, _⟩ => rfl
/-- The operand entries the down projection's term `f` multiplies: the hidden value at `(e, g, f)` and `w2[e, f, q]`. -/
theorem lidx_down (e : Fin 8) (g q : Fin 2048) (f : Fin 5632) : lidx_main_v5 (ix3 e g q) f = ix3 e g f :=
  funext fun a => match a with | ⟨0, _⟩ => rfl | ⟨1, _⟩ => rfl | ⟨2, _⟩ => rfl
theorem ridx_down (e : Fin 8) (g q : Fin 2048) (f : Fin 5632) : ridx_main_v5 (ix3 e g q) f = ix3 e f q :=
  funext fun a => match a with | ⟨0, _⟩ => rfl | ⟨1, _⟩ => rfl | ⟨2, _⟩ => rfl

variable (x0 : (⟨S16384x2048, .f32⟩ : BufTy).Contents (Elt Ideal))
  (w1 w3 : (⟨S8x2048x5632, .f32⟩ : BufTy).Contents (Elt Ideal)) (w2 : (⟨S8x5632x2048, .f32⟩ : BufTy).Contents (Elt Ideal))

/-- The gate projection. -/
theorem gate_eq (e : Fin 8) (g : Fin 2048) (f : Fin 5632) :
    val_main_v1 (F := Ideal) x0 w1 (ix3 e g f) = proj (val_main_v0 (F := Ideal) x0) w1 e g f := by
  rw [val_main_v1_apply]
  unfold proj
  exact Finset.sum_congr rfl fun d _ => by rw [lidx_up, ridx_up]

/-- The other up projection: the same product against `w3`. -/
theorem up_eq (e : Fin 8) (g : Fin 2048) (f : Fin 5632) :
    val_main_v2 (F := Ideal) x0 w3 (ix3 e g f) = proj (val_main_v0 (F := Ideal) x0) w3 e g f := by
  rw [val_main_v2_apply]
  unfold proj
  exact Finset.sum_congr rfl fun d _ => by
    rw [show lidx_main_v2 (ix3 e g f) d = ix3 e g d from funext fun a => match a with | ⟨0, _⟩ => rfl | ⟨1, _⟩ => rfl | ⟨2, _⟩ => rfl,
      show ridx_main_v2 (ix3 e g f) d = ix3 e d f from funext fun a => match a with | ⟨0, _⟩ => rfl | ⟨1, _⟩ => rfl | ⟨2, _⟩ => rfl]

/-- The hidden activation: `a · (1 / (1 + exp (−a))) · b` is `a · logistic a · b`. -/
theorem hidden_eq (e : Fin 8) (g : Fin 2048) (f : Fin 5632) :
    val_main_v4 (F := Ideal) x0 w1 w3 (ix3 e g f) = hidden (val_main_v0 (F := Ideal) x0) w1 w3 e g f := by
  rw [val_main_v4_apply, val_main_v3_apply, val_main_call0_v5_apply, val_main_call0_v4_apply, val_main_call0_cst_0_apply,
    val_main_call0_v3_apply, val_main_call0_v2_apply, val_main_call0_cst_apply, val_main_call0_v1_apply,
    val_main_call0_v0_apply, gate_eq, up_eq]
  simp only [Ideal.mulf_def, Ideal.hostDivf_def, Ideal.addf_def, Ideal.hostUnary_exp_def, Ideal.hostNegf_def,
    Ideal.negf_def, Ideal.ofBits_def, one_f32]
  rfl

/-- The reference's result before its last reshape is the layer, as one array. -/
theorem down_eq : val_main_v5 (F := Ideal) x0 w1 w2 w3 = out (val_main_v0 (F := Ideal) x0) w1 w3 w2 := by
  funext i
  obtain ⟨e, g, q, rfl⟩ : ∃ (e : Fin 8) (g q : Fin 2048), i = ix3 e g q := ⟨i 0, i 1, i 2, eq_ix3 i⟩
  rw [val_main_v5_apply]
  show _ = outAt _ w1 w3 w2 e g q
  unfold outAt term
  exact Finset.sum_congr rfl fun f _ => by rw [lidx_down, ridx_down, hidden_eq]

/-- The reference's result is the whole computation of its arguments: its first line splits the rows by expert, its last
    stacks them again. -/
theorem whole_eq : val_main_v6 (F := Ideal) x0 w1 w2 w3 = whole x0 w1 w3 w2 := by
  unfold val_main_v6 whole
  rw [down_eq]
  rfl

end Cert.GatedFfn.Ref

end
-- ==== Proof.Pieces.lean ====
import proofs.«182208_j1889785610412_1_alg».proof.Proof.Gen.KernelIdeal.Frame
import Idealize.ShloMosaic.Lib.Pipeline.Value
import Idealize.ShloMosaic.Lib.Tactic

/-!
  What each case of the body leaves behind, as values of the body's stores. The running block lives in a scratch
  buffer that every point overwrites whole:
    at a first hidden tile the body stores the zero block, reads it back and stores zero plus the tile's share;
    at a later tile it stores what the point before left plus the tile's share;
    at the last tile it does the same and then copies the running block into the result's block.
-/

set_option maxRecDepth 16384

noncomputable section

namespace Cert.GatedFfn.Pieces

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A first hidden tile: the running block becomes the zero block plus the tile's share. -/
theorem scratch_first (c : Dev nD) (i : grid0.Coords) (arg3 : Memref sig .tc .vmem S1x512x2048 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x128x2048 .f32) (harg6 : arg6.IsWhole) (arg7 : Memref sig .tc .vmem S1x512x2048 .f32) (harg7 : arg7.IsWhole) (arg8 : Memref sig .tc .vmem S512x2048 .f32) (harg8 : arg8.IsWhole) (hc0 : cond0_0 i) (hc1 : ¬cond0_1 i) (x0 : Vec F S1x512x2048 .f32) (x1 : Vec F S1x2048x128 .f32) (x2 : Vec F S1x2048x128 .f32) (x3 : Vec F S1x128x2048 .f32) :
    sout0_A_0 c i arg3 harg3 arg4 harg4 arg5 harg5 arg6 harg6 arg7 harg7 arg8 harg8 hc0 hc1 x0 x1 x2 x3 = k0_pay2 x0 x1 x2 x3 (k0_pay1 (F := F)) := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S512x2048) hz2, View.readCov_unit_zero (S := S512x2048) _ hz2]
  simp only [View.readAt_eq_ld, harg3.read_unread, harg4.read_unread, harg5.read_unread, harg6.read_unread, harg8.read_unread, View.ld_unit_zero (S := S1x512x2048) hz3, View.ld_unit_zero (S := S1x2048x128) hz3, View.ld_unit_zero (S := S1x128x2048) hz3, View.ld_unit_zero (S := S512x2048) hz2]

/-- A middle hidden tile: the running block becomes what it was plus the tile's share. -/
theorem scratch_middle (c : Dev nD) (i : grid0.Coords) (arg3 : Memref sig .tc .vmem S1x512x2048 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x128x2048 .f32) (harg6 : arg6.IsWhole) (arg7 : Memref sig .tc .vmem S1x512x2048 .f32) (harg7 : arg7.IsWhole) (arg8 : Memref sig .tc .vmem S512x2048 .f32) (harg8 : arg8.IsWhole) (hc0 : ¬cond0_0 i) (hc1 : ¬cond0_1 i) (x0 : Vec F S1x512x2048 .f32) (x1 : Vec F S1x2048x128 .f32) (x2 : Vec F S1x2048x128 .f32) (x3 : Vec F S1x128x2048 .f32) (xs0 : Vec F S512x2048 .f32) :
    sout0_B_0 c i arg3 harg3 arg4 harg4 arg5 harg5 arg6 harg6 arg7 harg7 arg8 harg8 hc0 hc1 x0 x1 x2 x3 xs0 = k0_pay2 x0 x1 x2 x3 xs0 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  sl_unfold_words
  rw [View.canon_unit_zero hz2]
  simp only [View.readAt_eq_ld, harg3.read_unread, harg4.read_unread, harg5.read_unread, harg6.read_unread, harg8.read_unread, View.ld_unit_zero (S := S1x512x2048) hz3, View.ld_unit_zero (S := S1x2048x128) hz3, View.ld_unit_zero (S := S1x128x2048) hz3, View.ld_unit_zero (S := S512x2048) hz2]

/-- The last hidden tile: the running block is updated the same way … -/
theorem scratch_last (c : Dev nD) (i : grid0.Coords) (arg3 : Memref sig .tc .vmem S1x512x2048 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x128x2048 .f32) (harg6 : arg6.IsWhole) (arg7 : Memref sig .tc .vmem S1x512x2048 .f32) (harg7 : arg7.IsWhole) (arg8 : Memref sig .tc .vmem S512x2048 .f32) (harg8 : arg8.IsWhole) (hc0 : ¬cond0_0 i) (hc1 : cond0_1 i) (x0 : Vec F S1x512x2048 .f32) (x1 : Vec F S1x2048x128 .f32) (x2 : Vec F S1x2048x128 .f32) (x3 : Vec F S1x128x2048 .f32) (xs0 : Vec F S512x2048 .f32) :
    sout0_C_0 c i arg3 harg3 arg4 harg4 arg5 harg5 arg6 harg6 arg7 harg7 arg8 harg8 hc0 hc1 x0 x1 x2 x3 xs0 = k0_pay2 x0 x1 x2 x3 xs0 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero hz2]
  simp only [View.readAt_eq_ld, harg3.read_unread, harg4.read_unread, harg5.read_unread, harg6.read_unread, harg8.read_unread, View.ld_unit_zero (S := S1x512x2048) hz3, View.ld_unit_zero (S := S1x2048x128) hz3, View.ld_unit_zero (S := S1x128x2048) hz3, View.ld_unit_zero (S := S512x2048) hz2]

/-- … and the result's block receives the updated running block. -/
theorem result_last (c : Dev nD) (i : grid0.Coords) (arg3 : Memref sig .tc .vmem S1x512x2048 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x128x2048 .f32) (harg6 : arg6.IsWhole) (arg7 : Memref sig .tc .vmem S1x512x2048 .f32) (harg7 : arg7.IsWhole) (arg8 : Memref sig .tc .vmem S512x2048 .f32) (harg8 : arg8.IsWhole) (hc0 : ¬cond0_0 i) (hc1 : cond0_1 i) (x0 : Vec F S1x512x2048 .f32) (x1 : Vec F S1x2048x128 .f32) (x2 : Vec F S1x2048x128 .f32) (x3 : Vec F S1x128x2048 .f32) (xs0 : Vec F S512x2048 .f32) :
    out0_C_4 c i arg3 harg3 arg4 harg4 arg5 harg5 arg6 harg6 arg7 harg7 arg8 harg8 hc0 hc1 x0 x1 x2 x3 xs0 = k0_pay3 (k0_pay2 x0 x1 x2 x3 xs0) := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero hz3]
  simp only [View.readAt_eq_ld, harg3.read_unread, harg4.read_unread, harg5.read_unread, harg6.read_unread, harg8.read_unread, View.ld_unit_zero (S := S1x512x2048) hz3, View.ld_unit_zero (S := S1x2048x128) hz3, View.ld_unit_zero (S := S1x128x2048) hz3, View.ld_unit_zero (S := S512x2048) hz2, View.readCov_unit_zero (S := S512x2048) _ hz2]

end Cert.GatedFfn.Pieces

end
-- ==== Proof.Steps.lean ====
import proofs.«182208_j1889785610412_1_alg».proof.Proof.Pieces

/-!
  The running block from one grid point to the next. The grid runs the 44 hidden tiles innermost, so a point's hidden
  tile is its position modulo 44. After a point on hidden tile 0 the running block is the zero block plus that tile's
  share; after any other point it is what the point before left plus the tile's share; and at hidden tile 43 the block
  handed to the result is the running block after that point.
-/

set_option maxRecDepth 16384

noncomputable section

namespace Cert.GatedFfn.Steps

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- The block of 512 rows a point works on. -/
abbrev rowsBlk (c : Dev nD) (t : Fin cfg0.N) : Vec F S1x512x2048 .f32 := iblk m c 0 t
/-- The point's hidden tile of the first up-projection weight, -/
abbrev up1Blk (c : Dev nD) (t : Fin cfg0.N) : Vec F S1x2048x128 .f32 := iblk m c 1 t
/-- of the second, -/
abbrev up3Blk (c : Dev nD) (t : Fin cfg0.N) : Vec F S1x2048x128 .f32 := iblk m c 2 t
/-- and of the down-projection weight. -/
abbrev downBlk (c : Dev nD) (t : Fin cfg0.N) : Vec F S1x128x2048 .f32 := iblk m c 3 t
/-- The running block after the point at position `n`. -/
abbrev accAfter (c : Dev nD) (n : ℕ) (h : n < cfg0.N) : Vec F S512x2048 .f32 := (outsAt0 m c n h).2
/-- The result's block after the point at position `n`. -/
abbrev resAfter (c : Dev nD) (n : ℕ) (h : n < cfg0.N) : Vec F S1x512x2048 .f32 := (outsAt0 m c n h).1

/-- After a point on hidden tile 0. -/
theorem acc_first (c : Dev nD) (t : Fin cfg0.N) (h0 : t.val % 44 = 0) :
    accAfter m c t.val t.isLt
      = k0_pay2 (rowsBlk m c t) (up1Blk m c t) (up3Blk m c t) (downBlk m c t) (k0_pay1 (F := F)) := by
  have h1 : ¬t.val % 44 = 43 := by omega
  show (outsAt0 m c t.val t.isLt).2 = _
  rw [outsAt0_A m c t h0 h1]
  dsimp only
  exact Pieces.scratch_first c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)

/-- After a point on any later hidden tile. -/
theorem acc_next (c : Dev nD) (t : Fin cfg0.N) (h0 : ¬t.val % 44 = 0) :
    accAfter m c t.val t.isLt
      = k0_pay2 (rowsBlk m c t) (up1Blk m c t) (up3Blk m c t) (downBlk m c t)
          (accAfter m c (t.val - 1) (Nat.lt_of_le_of_lt (Nat.sub_le _ _) t.isLt)) := by
  show (outsAt0 m c t.val t.isLt).2 = _
  by_cases h1 : t.val % 44 = 43
  · rw [outsAt0_C m c t h0 h1]
    dsimp only
    exact Pieces.scratch_last c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2
  · rw [outsAt0_B m c t h0 h1]
    dsimp only
    exact Pieces.scratch_middle c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2

/-- At hidden tile 43 the result's block is the running block after that point, with a unit axis in front. -/
theorem res_last (c : Dev nD) (t : Fin cfg0.N) (h1 : t.val % 44 = 43) :
    resAfter m c t.val t.isLt = k0_pay3 (accAfter m c t.val t.isLt) := by
  have h0 : ¬t.val % 44 = 0 := by omega
  have e := outsAt0_C m c t h0 h1
  have e1 : (outsAt0 m c t.val t.isLt).1 = out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2 := by
    rw [e]
  have e2 : (outsAt0 m c t.val t.isLt).2 = sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2 := by
    rw [e]
  show (outsAt0 m c t.val t.isLt).1 = k0_pay3 (outsAt0 m c t.val t.isLt).2
  rw [e1, e2]
  exact (Pieces.result_last c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2).trans
    (congrArg k0_pay3 (Pieces.scratch_last c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2).symm)

end Cert.GatedFfn.Steps

end
-- ==== Proof.Blocks.lean ====
import proofs.«182208_j1889785610412_1_alg».proof.Proof.Gen.KernelIdeal.Frame
import Idealize.ShloMosaic.Lib.Pipeline.Value

/-!
  Where a grid point sits, and what its input blocks are. The grid is 8 experts by 4 row tiles by 44 hidden tiles, the
  hidden tiles innermost: the point at position `t` works on expert `t / 176`, row tile `t / 44 % 4` and hidden tile
  `t % 44`. Its block of rows is `x[e, 512 r + p, d]`, its blocks of the up-projection weights are `w[e, d, 128 j + k]`, and
  its block of the down-projection weight is `w2[e, 128 j + k, q]`.
-/

set_option maxRecDepth 16384

noncomputable section

namespace Cert.GatedFfn.Blocks

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- The rows' window sits at block (expert, row tile, 0). -/
theorem index_rows : ∀ t : Fin cfg0.N, win0_0.index t 0 = t.val / 176 ∧ win0_0.index t 1 = t.val / 44 % 4 ∧ win0_0.index t 2 = 0 :=
  (by decide +kernel : ∀ t : Fin grid0.N, win0_0.index t 0 = t.val / 176 ∧ win0_0.index t 1 = t.val / 44 % 4 ∧ win0_0.index t 2 = 0)
/-- The first up-projection weight's window sits at block (expert, 0, hidden tile), -/
theorem index_up1 : ∀ t : Fin cfg0.N, win0_1.index t 0 = t.val / 176 ∧ win0_1.index t 1 = 0 ∧ win0_1.index t 2 = t.val % 44 :=
  (by decide +kernel : ∀ t : Fin grid0.N, win0_1.index t 0 = t.val / 176 ∧ win0_1.index t 1 = 0 ∧ win0_1.index t 2 = t.val % 44)
/-- and so does the second's. -/
theorem index_up3 : ∀ t : Fin cfg0.N, win0_2.index t 0 = t.val / 176 ∧ win0_2.index t 1 = 0 ∧ win0_2.index t 2 = t.val % 44 :=
  (by decide +kernel : ∀ t : Fin grid0.N, win0_2.index t 0 = t.val / 176 ∧ win0_2.index t 1 = 0 ∧ win0_2.index t 2 = t.val % 44)
/-- The down-projection weight's window sits at block (expert, hidden tile, 0). -/
theorem index_down : ∀ t : Fin cfg0.N, win0_3.index t 0 = t.val / 176 ∧ win0_3.index t 1 = t.val % 44 ∧ win0_3.index t 2 = 0 :=
  (by decide +kernel : ∀ t : Fin grid0.N, win0_3.index t 0 = t.val / 176 ∧ win0_3.index t 1 = t.val % 44 ∧ win0_3.index t 2 = 0)
/-- The result's window sits at block (expert, row tile, 0). -/
theorem index_res : ∀ t : Fin cfg0.N, win0_4.index t 0 = t.val / 176 ∧ win0_4.index t 1 = t.val / 44 % 4 ∧ win0_4.index t 2 = 0 :=
  (by decide +kernel : ∀ t : Fin grid0.N, win0_4.index t 0 = t.val / 176 ∧ win0_4.index t 1 = t.val / 44 % 4 ∧ win0_4.index t 2 = 0)

/-- The rows' block at entry `y` is the array at (expert, 512 · row tile + y₁, y₂). -/
theorem rows_apply (c : Dev nD) (t : Fin cfg0.N) (y : S1x512x2048.Idx) (k : S8x2048x2048.Idx)
    (h0 : (k 0).val = t.val / 176) (h1 : (k 1).val = 512 * (t.val / 44 % 4) + (y 1).val) (h2 : (k 2).val = (y 2).val) :
    (iblk m c 0 t : Vec F S1x512x2048 .f32) y = (V m c main_v0 : S8x2048x2048.Idx → Elt F .f32) k := by
  have hi := index_rows t
  have hy0 : (y 0).val = 0 := by have : (y 0).val < 1 := (y 0).isLt; omega
  unfold iblk
  rw [View.read_apply]
  show V m c main_v0 _ = V m c main_v0 _
  refine congrArg _ (funext fun a => Fin.ext ?_)
  match a with
  | ⟨0, _⟩ => show win0_0.index t 0 * 1 + 1 * (y 0).val = (k 0).val; rw [hi.1, h0, hy0]; omega
  | ⟨1, _⟩ => show win0_0.index t 1 * 512 + 1 * (y 1).val = (k 1).val; rw [hi.2.1, h1]; omega
  | ⟨2, _⟩ => show win0_0.index t 2 * 2048 + 1 * (y 2).val = (k 2).val; rw [hi.2.2, h2]; omega

/-- The first up-projection weight's block at entry `y` is the array at (expert, y₁, 128 · hidden tile + y₂). -/
theorem up1_apply (c : Dev nD) (t : Fin cfg0.N) (y : S1x2048x128.Idx) (k : S8x2048x5632.Idx)
    (h0 : (k 0).val = t.val / 176) (h1 : (k 1).val = (y 1).val) (h2 : (k 2).val = 128 * (t.val % 44) + (y 2).val) :
    (iblk m c 1 t : Vec F S1x2048x128 .f32) y = (V m c main_arg1 : S8x2048x5632.Idx → Elt F .f32) k := by
  have hi := index_up1 t
  have hy0 : (y 0).val = 0 := by have : (y 0).val < 1 := (y 0).isLt; omega
  unfold iblk
  rw [View.read_apply]
  show V m c main_arg1 _ = V m c main_arg1 _
  refine congrArg _ (funext fun a => Fin.ext ?_)
  match a with
  | ⟨0, _⟩ => show win0_1.index t 0 * 1 + 1 * (y 0).val = (k 0).val; rw [hi.1, h0, hy0]; omega
  | ⟨1, _⟩ => show win0_1.index t 1 * 2048 + 1 * (y 1).val = (k 1).val; rw [hi.2.1, h1]; omega
  | ⟨2, _⟩ => show win0_1.index t 2 * 128 + 1 * (y 2).val = (k 2).val; rw [hi.2.2, h2]; omega

/-- The second up-projection weight's block likewise. -/
theorem up3_apply (c : Dev nD) (t : Fin cfg0.N) (y : S1x2048x128.Idx) (k : S8x2048x5632.Idx)
    (h0 : (k 0).val = t.val / 176) (h1 : (k 1).val = (y 1).val) (h2 : (k 2).val = 128 * (t.val % 44) + (y 2).val) :
    (iblk m c 2 t : Vec F S1x2048x128 .f32) y = (V m c main_arg3 : S8x2048x5632.Idx → Elt F .f32) k := by
  have hi := index_up3 t
  have hy0 : (y 0).val = 0 := by have : (y 0).val < 1 := (y 0).isLt; omega
  unfold iblk
  rw [View.read_apply]
  show V m c main_arg3 _ = V m c main_arg3 _
  refine congrArg _ (funext fun a => Fin.ext ?_)
  match a with
  | ⟨0, _⟩ => show win0_2.index t 0 * 1 + 1 * (y 0).val = (k 0).val; rw [hi.1, h0, hy0]; omega
  | ⟨1, _⟩ => show win0_2.index t 1 * 2048 + 1 * (y 1).val = (k 1).val; rw [hi.2.1, h1]; omega
  | ⟨2, _⟩ => show win0_2.index t 2 * 128 + 1 * (y 2).val = (k 2).val; rw [hi.2.2, h2]; omega

/-- The down-projection weight's block at entry `y` is the array at (expert, 128 · hidden tile + y₁, y₂). -/
theorem down_apply (c : Dev nD) (t : Fin cfg0.N) (y : S1x128x2048.Idx) (k : S8x5632x2048.Idx)
    (h0 : (k 0).val = t.val / 176) (h1 : (k 1).val = 128 * (t.val % 44) + (y 1).val) (h2 : (k 2).val = (y 2).val) :
    (iblk m c 3 t : Vec F S1x128x2048 .f32) y = (V m c main_arg2 : S8x5632x2048.Idx → Elt F .f32) k := by
  have hi := index_down t
  have hy0 : (y 0).val = 0 := by have : (y 0).val < 1 := (y 0).isLt; omega
  unfold iblk
  rw [View.read_apply]
  show V m c main_arg2 _ = V m c main_arg2 _
  refine congrArg _ (funext fun a => Fin.ext ?_)
  match a with
  | ⟨0, _⟩ => show win0_3.index t 0 * 1 + 1 * (y 0).val = (k 0).val; rw [hi.1, h0, hy0]; omega
  | ⟨1, _⟩ => show win0_3.index t 1 * 128 + 1 * (y 1).val = (k 1).val; rw [hi.2.1, h1]; omega
  | ⟨2, _⟩ => show win0_3.index t 2 * 2048 + 1 * (y 2).val = (k 2).val; rw [hi.2.2, h2]; omega

end Cert.GatedFfn.Blocks

end
-- ==== Proof.LibPlainDot.lean ====
import Idealize.ShloMosaic.PureOps.Ideal.Laws
import Idealize.ShloMosaic.Lib.ValueIdx
import Idealize.ShloMosaic.PureOps.Dims

/-!
  A plain matrix product: a left operand of shape [M, K] contracted on its axis 1 against a right operand of shape
  [K, N] contracted on its axis 0, with no batch axes, gives a result of shape [M, N] whose entry (p, q) is the sum
  over k < K of l(p, k) · r(k, q). The dimension record is a variable and its six lists are hypotheses, so the lemmas
  apply to every record of this shape.
-/

open scoped BigOperators

namespace Cert.Lib.PlainDot

open Idealize.ShloMosaic Idealize.ShloMosaic.ValueIdx

variable {M K N : Nat} (d : DotDims ⟨2, ![M, K]⟩ ⟨2, ![K, N]⟩ ⟨2, ![M, N]⟩)

/-- With one contracting axis the contraction shape has rank one. -/
theorem rank_contr_eq_one (hlc : d.lhsContracting = [1]) : d.contr.rank = 1 := by
  rw [d.rank_contr, hlc]; rfl

/-- The one axis of the contraction shape has the extent K of the left operand's axis 1. -/
theorem size_contr_eq (hlc : d.lhsContracting = [1]) :
    d.contr.size ⟨0, by rw [rank_contr_eq_one d hlc]; exact Nat.one_pos⟩ = K := by
  have h0 : 0 < d.lhsContracting.length := by rw [hlc]; exact Nat.one_pos
  rw [d.size_contr 0 h0]
  have h1 : d.lhsContracting[0] = 1 := by simp [hlc]
  rw [h1]; rfl

/-- The left operand's index reads, on its non-contracting axis 0, the result index's row. -/
theorem lhsIdx_zero_val (hln : d.lhsNonContracting = [0]) (hlb : d.lhsBatch = [])
    (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (n : Nat) (h : n < (⟨2, ![M, N]⟩ : Shape).rank), n = 0 → (j ⟨n, h⟩).val = (j 0).val :=
    fun n h e => by subst e; rfl
  exact key _ _ (by simp [hlb, hln])

/-- The right operand's index reads, on its non-contracting axis 1, the result index's column. -/
theorem rhsIdx_one_val (hln : d.lhsNonContracting = [0]) (hrn : d.rhsNonContracting = [1])
    (hlb : d.lhsBatch = []) (hrb : d.rhsBatch = [])
    (j : (⟨2, ![M, N]⟩ : Shape).Idx) (k : d.contr.Idx) : (d.rhsIdx j k 1).val = (j 1).val := by
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  unfold DotDims.rhsIdx
  rw [dif_neg hb, dif_pos hn]
  simp only [Fin.val_cast]
  have key : ∀ (n : Nat) (h : n < (⟨2, ![M, N]⟩ : Shape).rank), n = 1 → (j ⟨n, h⟩).val = (j 1).val :=
    fun n h e => by subst e; rfl
  exact key _ _ (by simp [hlb, hln, hrn])

/-- The contraction sum of a plain matrix product at entry (p, q), re-indexed by the one contraction coordinate, is the
    sum over k < K of l(p, k) · r(k, q). -/
theorem sum_eq (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (p : Fin M) (q : Fin N) :
    (∑ k : d.contr.Idx, l (d.lhsIdx (ix2 p q) k) * r (d.rhsIdx (ix2 p q) k)) = ∑ k : Fin K, l (ix2 p k) * r (ix2 k q) := by
  have hr : d.contr.rank = 1 := rank_contr_eq_one d hlc
  have hs : d.contr.size ⟨0, by omega⟩ = K := size_contr_eq d hlc
  refine (Equiv.sum_comp (contrEquiv1 d K hr hs).symm
    (fun k => l (d.lhsIdx (ix2 p q) k) * r (d.rhsIdx (ix2 p q) k))).symm.trans ?_
  refine Finset.sum_congr rfl fun i _ => ?_
  have hL : d.lhsIdx (ix2 p q) ((contrEquiv1 d K hr hs).symm i) = ix2 p i := by
    funext a
    match a with
    | ⟨0, _⟩ => exact Fin.ext (lhsIdx_zero_val d hln hlb _ _)
    | ⟨1, _⟩ => exact Fin.ext ((d.lhsIdx_val_of_single hlc _ _).trans (contrEquiv1_symm_val d K hr hs i))
  have hR : d.rhsIdx (ix2 p q) ((contrEquiv1 d K hr hs).symm i) = ix2 i q := by
    funext a
    match a with
    | ⟨0, _⟩ => exact Fin.ext ((d.rhsIdx_val_of_single hrc _ _).trans (contrEquiv1_symm_val d K hr hs i))
    | ⟨1, _⟩ => exact Fin.ext (rhsIdx_one_val d hln hrn hlb hrb _ _)
  show l _ * r _ = _
  rw [hL, hR]

/-- A plain matrix product accumulated into the zero splat, read at entry (p, q) at the ideal values, is the sum over
    k < K of l(p, k) · r(k, q). -/
theorem matmul_zero_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (l : FVec Ideal ⟨2, ![M, K]⟩ φ₁) (r : FVec Ideal ⟨2, ![K, N]⟩ φ₂) (p : Fin M) (q : Fin N) :
    FloatOps.matmul d prec l r (constant (F := Ideal) ⟨2, ![M, N]⟩ .f32 0x00000000#32) (ix2 p q)
      = ∑ k : Fin K, l (ix2 p k) * r (ix2 k q) :=
  (Ideal.matmul_constant_zero_apply d prec l r (ix2 p q)).trans (sum_eq d hlc hrc hln hrn hlb hrb l r p q)

/-- The host's plain matrix product, read at entry (p, q) at the ideal values, is the sum over k < K of
    l(p, k) · r(k, q), whatever the schedule. -/
theorem dotGeneral_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ k : Fin K, l (ix2 p k) * r (ix2 k q) :=
  (Ideal.dotGeneral_apply d prec sched l r (ix2 p q)).trans (sum_eq d hlc hrc hln hrn hlb hrb l r p q)

end Cert.Lib.PlainDot
-- ==== Proof.Payload.lean ====
import proofs.«182208_j1889785610412_1_alg».proof.Proof.Gen.KernelIdeal.Skeleton
import proofs.«182208_j1889785610412_1_alg».proof.Proof.Spec
import proofs.«182208_j1889785610412_1_alg».proof.Proof.LibPlainDot
import Idealize.ShloMosaic.Lib.ValueLayout
import Idealize.ShloMosaic.Lib.Pipeline.Value

/-!
  What one grid point's body computes, read entry by entry at the ideal values. The body holds a block of 512 rows
  `xb[0, p, d]`, the 128 columns `ub[0, d, k]` of each up-projection weight that belong to one hidden tile, and that
  tile's 128 rows `db[0, k, q]` of the down-projection weight. It adds to the running block `acc[p, q]`

      ∑ k < 128, (a · logistic a · b) · db[0, k, q],   a = ∑ d < 2048, xb[0, p, d] · ub1[0, d, k],   b likewise with ub3.

  Rounding to the narrower float format is the identity here, and a matrix product into a zero block is the plain sum.
-/

open scoped BigOperators

noncomputable section

namespace Cert.GatedFfn.Body

open Cert.KernelIdeal Cert.KernelIdeal.Gen Idealize.ShloMosaic Idealize.ShloMosaic.ValueIdx Cert.GatedFfn

/-- The block's up projection: 512 rows against one hidden tile's 128 columns. -/
def projB (xb : FVec Ideal S1x512x2048 .f32) (ub : FVec Ideal S1x2048x128 .f32) : FVec Ideal S512x128 .f32 :=
  matmul dot_S512x2048_S2048x128_S512x128_1_0_0_1_n_n none
    (truncf .bf16 (shapeCast S512x2048 xb shapeCasts_S1x512x2048_S512x2048) bitsLt_bf16_f32)
    (truncf .bf16 (shapeCast S2048x128 ub shapeCasts_S1x2048x128_S2048x128) bitsLt_bf16_f32)
    (constant S512x128 .f32 0x00000000#32)

/-- The block's hidden activation on one tile. -/
def hidB (xb : FVec Ideal S1x512x2048 .f32) (ub1 ub3 : FVec Ideal S1x2048x128 .f32) : FVec Ideal S512x128 .f32 :=
  mulf (mulf (projB xb ub1) (logistic (projB xb ub1))) (projB xb ub3)

/-- The tile's share of the block's down projection. -/
def partB (xb : FVec Ideal S1x512x2048 .f32) (ub1 ub3 : FVec Ideal S1x2048x128 .f32) (db : FVec Ideal S1x128x2048 .f32) :
    FVec Ideal S512x2048 .f32 :=
  matmul dot_S512x128_S128x2048_S512x2048_1_0_0_1_n_n none
    (truncf .bf16 (hidB xb ub1 ub3) bitsLt_bf16_f32)
    (truncf .bf16 (shapeCast S128x2048 db shapeCasts_S1x128x2048_S128x2048) bitsLt_bf16_f32)
    (constant S512x2048 .f32 0x00000000#32)

/-- The body's second store writes the running block plus the tile's share. -/
theorem pay2_eq (xb : FVec Ideal S1x512x2048 .f32) (ub1 ub3 : FVec Ideal S1x2048x128 .f32) (db : FVec Ideal S1x128x2048 .f32)
    (acc : FVec Ideal S512x2048 .f32) :
    k0_pay2 xb ub1 ub3 db acc = shapeCast S512x2048 (addf acc (partB xb ub1 ub3 db)) shapeCasts_S512x2048_S512x2048 := rfl

/-- An up projection's entry `(p, k)` is the sum over the model width. -/
theorem projB_apply (xb : FVec Ideal S1x512x2048 .f32) (ub : FVec Ideal S1x2048x128 .f32) (p : Fin 512) (k : Fin 128) :
    projB xb ub (ix2 p k) = ∑ d : Fin 2048, xb (ix3 (0 : Fin 1) p d) * ub (ix3 (0 : Fin 1) d k) := by
  unfold projB
  refine (Cert.Lib.PlainDot.matmul_zero_apply dot_S512x2048_S2048x128_S512x128_1_0_0_1_n_n rfl rfl rfl rfl rfl rfl none _ _ p k).trans ?_
  refine Finset.sum_congr rfl fun d _ => ?_
  rw [truncf_apply, truncf_apply, shapeCast_1ab_ab_apply, shapeCast_1ab_ab_apply]

/-- The hidden activation's entry `(p, k)`. -/
theorem hidB_apply (xb : FVec Ideal S1x512x2048 .f32) (ub1 ub3 : FVec Ideal S1x2048x128 .f32) (p : Fin 512) (k : Fin 128) :
    hidB xb ub1 ub3 (ix2 p k)
      = projB xb ub1 (ix2 p k) * Ideal.logistic (projB xb ub1 (ix2 p k)) * projB xb ub3 (ix2 p k) := rfl

/-- The tile's share at entry `(p, q)`. -/
theorem partB_apply (xb : FVec Ideal S1x512x2048 .f32) (ub1 ub3 : FVec Ideal S1x2048x128 .f32) (db : FVec Ideal S1x128x2048 .f32)
    (p : Fin 512) (q : Fin 2048) :
    partB xb ub1 ub3 db (ix2 p q) = ∑ k : Fin 128, hidB xb ub1 ub3 (ix2 p k) * db (ix3 (0 : Fin 1) k q) := by
  unfold partB
  refine (Cert.Lib.PlainDot.matmul_zero_apply dot_S512x128_S128x2048_S512x2048_1_0_0_1_n_n rfl rfl rfl rfl rfl rfl none _ _ p q).trans ?_
  refine Finset.sum_congr rfl fun k _ => ?_
  rw [truncf_apply, truncf_apply, shapeCast_1ab_ab_apply]

/-- The zero block the first tile starts from. -/
theorem pay1_apply (p : Fin 512) (q : Fin 2048) : (k0_pay1 (F := Ideal)) (ix2 p q) = 0 := by
  unfold k0_pay1
  rw [shapeCast_self]
  exact Ideal.ofBits_zero_f32

/-- The second store at entry `(p, q)`. -/
theorem pay2_apply (xb : FVec Ideal S1x512x2048 .f32) (ub1 ub3 : FVec Ideal S1x2048x128 .f32) (db : FVec Ideal S1x128x2048 .f32)
    (acc : FVec Ideal S512x2048 .f32) (p : Fin 512) (q : Fin 2048) :
    k0_pay2 xb ub1 ub3 db acc (ix2 p q) = acc (ix2 p q) + partB xb ub1 ub3 db (ix2 p q) := by
  rw [pay2_eq, shapeCast_self]
  rfl

/-- The third store copies the running block out with a unit axis in front. -/
theorem pay3_apply (acc : FVec Ideal S512x2048 .f32) (u : Fin 1) (p : Fin 512) (q : Fin 2048) :
    k0_pay3 acc (ix3 u p q) = acc (ix2 p q) := by
  unfold k0_pay3
  exact shapeCast_ab_1ab_apply acc _ u p q

/-- When the blocks are the windows of the arrays `x`, `w1`, `w3`, `w2` at expert `e`, row tile `r` and hidden tile `j`, the
    tile's share at `(p, q)` is the layer's tile sum at row `512 · r + p`. -/
theorem partB_eq_tileSum (x : ActS.Idx → EReal) (w1 w3 : UpS.Idx → EReal) (w2 : DownS.Idx → EReal)
    (e : Fin 8) (r : Fin 4) (j : Fin 44)
    (xb : FVec Ideal S1x512x2048 .f32) (ub1 ub3 : FVec Ideal S1x2048x128 .f32) (db : FVec Ideal S1x128x2048 .f32)
    (hx : ∀ (p : Fin 512) (d : Fin 2048), xb (ix3 (0 : Fin 1) p d) = x (ix3 e (row r p) d))
    (h1 : ∀ (d : Fin 2048) (k : Fin 128), ub1 (ix3 (0 : Fin 1) d k) = w1 (ix3 e d (col j k)))
    (h3 : ∀ (d : Fin 2048) (k : Fin 128), ub3 (ix3 (0 : Fin 1) d k) = w3 (ix3 e d (col j k)))
    (h2 : ∀ (k : Fin 128) (q : Fin 2048), db (ix3 (0 : Fin 1) k q) = w2 (ix3 e (col j k) q))
    (p : Fin 512) (q : Fin 2048) :
    partB xb ub1 ub3 db (ix2 p q) = tileSum x w1 w3 w2 e (row r p) q j := by
  rw [partB_apply]
  unfold tileSum term hidden proj
  refine Finset.sum_congr rfl fun k _ => ?_
  rw [hidB_apply, projB_apply, projB_apply, h2]
  simp only [hx, h1, h3]

end Cert.GatedFfn.Body

end
-- ==== Proof.Accumulate.lean ====
import proofs.«182208_j1889785610412_1_alg».proof.Proof.Steps
import proofs.«182208_j1889785610412_1_alg».proof.Proof.Blocks
import proofs.«182208_j1889785610412_1_alg».proof.Proof.Payload

/-!
  The running block is the layer's partial sum. Fix an expert `e` and a row tile `r`; their 44 points are the positions
  `176 e + 44 r + j`, one per hidden tile `j`, visited in order. After the point of hidden tile `j` the running block holds,
  at `(p, q)`, the shares of the hidden tiles `0 … j` of the layer's entry `(e, 512 r + p, q)`, added first to last
  starting from zero: by induction on `j`, each step being one point's "what was there plus this tile's share".
-/

open scoped BigOperators

noncomputable section

namespace Cert.GatedFfn.Acc

open Cert.KernelIdeal Cert.KernelIdeal.Gen Idealize.ShloMosaic Idealize.ShloMosaic.TcCoe Idealize.SL.Sem
open Idealize.ShloMosaic.ValueIdx Cert.GatedFfn

variable (m : (ℓ : Loc nD τ sig) → Buf (Elt Ideal) ℓ)

/-- The four arrays as the kernel's region finds them: the rows (already split by expert), and the three weights. -/
abbrev xArr (c : Dev nD) : ActS.Idx → EReal := V m c main_v0
abbrev w1Arr (c : Dev nD) : UpS.Idx → EReal := V m c main_arg1
abbrev w3Arr (c : Dev nD) : UpS.Idx → EReal := V m c main_arg3
abbrev w2Arr (c : Dev nD) : DownS.Idx → EReal := V m c main_arg2

/-- The share a point adds is the layer's tile sum for the point's expert, row tile and hidden tile. -/
theorem share_eq (c : Dev nD) (t : Fin cfg0.N) (e : Fin 8) (r : Fin 4) (j : Fin 44)
    (he : t.val / 176 = e.val) (hr : t.val / 44 % 4 = r.val) (hj : t.val % 44 = j.val) (p : Fin 512) (q : Fin 2048) :
    Body.partB (Steps.rowsBlk m c t) (Steps.up1Blk m c t) (Steps.up3Blk m c t) (Steps.downBlk m c t) (ix2 p q)
      = tileSum (xArr m c) (w1Arr m c) (w3Arr m c) (w2Arr m c) e (row r p) q j :=
  Body.partB_eq_tileSum (xArr m c) (w1Arr m c) (w3Arr m c) (w2Arr m c) e r j
    (Steps.rowsBlk m c t) (Steps.up1Blk m c t) (Steps.up3Blk m c t) (Steps.downBlk m c t)
    (fun p d => Blocks.rows_apply m c t (ix3 (0 : Fin 1) p d) (ix3 e (row r p) d) he.symm
      (by show 512 * r.val + p.val = 512 * (t.val / 44 % 4) + p.val; rw [hr]) rfl)
    (fun d k => Blocks.up1_apply m c t (ix3 (0 : Fin 1) d k) (ix3 e d (col j k)) he.symm rfl
      (by show 128 * j.val + k.val = 128 * (t.val % 44) + k.val; rw [hj]))
    (fun d k => Blocks.up3_apply m c t (ix3 (0 : Fin 1) d k) (ix3 e d (col j k)) he.symm rfl
      (by show 128 * j.val + k.val = 128 * (t.val % 44) + k.val; rw [hj]))
    (fun k q => Blocks.down_apply m c t (ix3 (0 : Fin 1) k q) (ix3 e (col j k) q) he.symm
      (by show 128 * j.val + k.val = 128 * (t.val % 44) + k.val; rw [hj]) rfl)
    p q

/-- The running block at equal positions is the same block. -/
theorem accAfter_congr (c : Dev nD) {n n' : ℕ} (e : n = n') (h : n < cfg0.N) (h' : n' < cfg0.N) :
    Steps.accAfter m c n h = Steps.accAfter m c n' h' := by
  subst e; rfl

/-- THE INVARIANT. After the point of hidden tile `j` of expert `e` and row tile `r`, the running block at `(p, q)` is the
    shares of the hidden tiles up to `j` of the layer's entry `(e, 512 r + p, q)`. -/
theorem acc_eq (c : Dev nD) (e : Fin 8) (r : Fin 4) :
    ∀ (j : ℕ) (hj : j < 44) (h : 176 * e.val + 44 * r.val + j < cfg0.N) (p : Fin 512) (q : Fin 2048),
      Steps.accAfter m c (176 * e.val + 44 * r.val + j) h (ix2 p q)
        = upTo (tileSum (xArr m c) (w1Arr m c) (w3Arr m c) (w2Arr m c) e (row r p) q) j hj
  | 0, hj, h, p, q => by
    have he8 : e.val < 8 := e.isLt
    have hr4 : r.val < 4 := r.isLt
    have h0 : (⟨176 * e.val + 44 * r.val + 0, h⟩ : Fin cfg0.N).val % 44 = 0 := by
      show (176 * e.val + 44 * r.val + 0) % 44 = 0; omega
    refine (congrFun (Steps.acc_first m c ⟨176 * e.val + 44 * r.val + 0, h⟩ h0) (ix2 p q)).trans ?_
    refine (Body.pay2_apply _ _ _ _ _ p q).trans ?_
    refine (congrArg₂ (· + ·) (Body.pay1_apply p q)
      (share_eq m c ⟨176 * e.val + 44 * r.val + 0, h⟩ e r ⟨0, hj⟩
        (by show (176 * e.val + 44 * r.val + 0) / 176 = e.val; omega)
        (by show (176 * e.val + 44 * r.val + 0) / 44 % 4 = r.val; omega)
        (by show (176 * e.val + 44 * r.val + 0) % 44 = 0; omega) p q)).trans ?_
    exact (upTo_zero _ hj).symm
  | j + 1, hj, h, p, q => by
    have he8 : e.val < 8 := e.isLt
    have hr4 : r.val < 4 := r.isLt
    have h0 : ¬(⟨176 * e.val + 44 * r.val + (j + 1), h⟩ : Fin cfg0.N).val % 44 = 0 := by
      show ¬(176 * e.val + 44 * r.val + (j + 1)) % 44 = 0; omega
    have hprev := acc_eq c e r j (Nat.lt_of_succ_lt hj) (Nat.lt_of_succ_lt h) p q
    refine (congrFun (Steps.acc_next m c ⟨176 * e.val + 44 * r.val + (j + 1), h⟩ h0) (ix2 p q)).trans ?_
    refine (Body.pay2_apply _ _ _ _ _ p q).trans ?_
    refine (congrArg₂ (· + ·)
      ((congrFun (accAfter_congr m c (show 176 * e.val + 44 * r.val + (j + 1) - 1 = 176 * e.val + 44 * r.val + j by omega) _
        (Nat.lt_of_succ_lt h)) (ix2 p q)).trans hprev)
      (share_eq m c ⟨176 * e.val + 44 * r.val + (j + 1), h⟩ e r ⟨j + 1, hj⟩
        (by show (176 * e.val + 44 * r.val + (j + 1)) / 176 = e.val; omega)
        (by show (176 * e.val + 44 * r.val + (j + 1)) / 44 % 4 = r.val; omega)
        (by show (176 * e.val + 44 * r.val + (j + 1)) % 44 = j + 1; omega) p q)).trans ?_
    exact (upTo_succ _ j hj).symm

/-- So after the last hidden tile the running block holds the layer's entries of that expert and row tile. -/
theorem acc_last (c : Dev nD) (e : Fin 8) (r : Fin 4) (h : 176 * e.val + 44 * r.val + 43 < cfg0.N) (p : Fin 512) (q : Fin 2048) :
    Steps.accAfter m c (176 * e.val + 44 * r.val + 43) h (ix2 p q)
      = outAt (xArr m c) (w1Arr m c) (w3Arr m c) (w2Arr m c) e (row r p) q :=
  (acc_eq m c e r 43 (by decide) h p q).trans (upTo_tileSum_last _ _ _ _ e (row r p) q (by decide))

end Cert.GatedFfn.Acc

end
-- ==== Proof.Result.lean ====
import proofs.«182208_j1889785610412_1_alg».proof.Proof.Accumulate
import Idealize.ShloMosaic.Lib.Pipeline.Value
import Idealize.ShloMosaic.Lib.StableHlo.Run
import Idealize.ShloMosaic.Lib.Tactic

/-!
  The kernel's result. The result's block is written back once per expert and row tile, after hidden tile 43, and then
  holds the running block, which by then is the layer's entries of that expert and row tile. The 32 blocks tile the
  [8, 2048, 2048] array — entry `(e, g, q)` lies in the block of expert `e` and row tile `g / 512` — so the array ends
  holding the layer; the program's last line stacks the experts' rows again.
-/

set_option maxRecDepth 16384

noncomputable section

namespace Cert.GatedFfn.Result

open Cert.KernelIdeal Cert.KernelIdeal.Gen Idealize.ShloMosaic Idealize.ShloMosaic.TcCoe Idealize.SL.Sem
open Idealize.ShloMosaic.ValueIdx Cert.GatedFfn Cert.GatedFfn.Acc
open Idealize.ShloMosaic.Pipeline (Dat)

variable (m : (ℓ : Loc nD τ sig) → Buf (Elt Ideal) ℓ) (ρ : Dev nD → PrngReg)

/-- The layer of the arrays the region finds. -/
abbrev layer (c : Dev nD) : ActS.Idx → EReal := out (xArr m c) (w1Arr m c) (w3Arr m c) (w2Arr m c)

/-- The block handed to the result at a point of hidden tile 43, entry by entry: the layer at (expert, 512 · row tile + y₁, y₂). -/
theorem res_apply (c : Dev nD) (t : Fin cfg0.N) (h43 : t.val % 44 = 43) (y : S1x512x2048.Idx) (i : S8x2048x2048.Idx)
    (h0 : (i 0).val = t.val / 176) (h1 : (i 1).val = 512 * (t.val / 44 % 4) + (y 1).val) (h2 : (i 2).val = (y 2).val) :
    k0_pay3 (Steps.accAfter m c t.val t.isLt) y = layer m c i := by
  have hN : t.val < 1408 := lt_of_lt_of_eq t.isLt N_0
  obtain ⟨u, p, q, rfl⟩ : ∃ (u : Fin 1) (p : Fin 512) (q : Fin 2048), y = ix3 u p q := ⟨y 0, y 1, y 2, eq_ix3 y⟩
  have hi0 : (i 0 : Fin 8) = ⟨t.val / 176, by omega⟩ := Fin.ext h0
  have hi1 : (i 1 : Fin 2048) = row ⟨t.val / 44 % 4, Nat.mod_lt _ (by decide)⟩ p := Fin.ext h1
  have hi2 : (i 2 : Fin 2048) = q := Fin.ext h2
  have hpos : t.val = 176 * (t.val / 176) + 44 * (t.val / 44 % 4) + 43 := by omega
  refine (Body.pay3_apply _ u p q).trans ?_
  refine (congrFun (accAfter_congr m c hpos t.isLt (lt_of_eq_of_lt hpos.symm t.isLt)) (ix2 p q)).trans ?_
  refine (acc_last m c ⟨t.val / 176, by omega⟩ ⟨t.val / 44 % 4, Nat.mod_lt _ (by decide)⟩ _ p q).trans ?_
  show _ = outAt _ _ _ _ (i 0) (i 1) (i 2)
  rw [hi0, hi1, hi2]
  rfl

/-- What a point of hidden tile 43 writes back is its block of the layer. -/
theorem flushed_eq (c : Dev nD) (t : Fin cfg0.N) (hf : (cfg0.win 4).flush t = true) :
    (dats m 0 c).flushed 4 t = ((cfg0.win 4).blk t).view.read (Elt Ideal) (layer m c) := by
  have h43 : t.val % 44 = 43 := (flush0_4 t).mp hf
  obtain ⟨e0, e1, e2⟩ := Blocks.index_res t
  show (cfg0.win 4).cut (grid0.coords t) ((dats m 0 c).after 4 t) = _
  rw [after0_4]
  show (cfg0.win 4).cut (grid0.coords t) (Steps.resAfter m c t.val t.isLt) = _
  rw [Steps.res_last m c t h43]
  funext y
  show k0_pay3 (Steps.accAfter m c t.val t.isLt) y = layer m c (((cfg0.win 4).blk t).view.emb y)
  have hy0 : (y 0).val < 1 := (y 0).isLt
  refine res_apply m c t h43 y _ ?_ ?_ ?_
  · show win0_4.index t 0 * 1 + 1 * (y 0).val = t.val / 176; rw [e0]; omega
  · show win0_4.index t 1 * 512 + 1 * (y 1).val = 512 * (t.val / 44 % 4) + (y 1).val; rw [e1]; omega
  · show win0_4.index t 2 * 2048 + 1 * (y 2).val = (y 2).val; rw [e2]; omega

/-- The result array after the region is the layer. -/
theorem final (c : Dev nD) : (dats m 0 c).arrAt 4 cfg0.N = layer m c :=
  (dats m 0 c).arrAt_eq_of_cover 4 (layer m c) (flushed_eq m c) fun i => by
    have hi0 : (i 0).val < 8 := (i 0).isLt
    have hi1 : (i 1).val < 2048 := (i 1).isLt
    have hi2 : (i 2).val < 2048 := (i 2).isLt
    have hn : 176 * (i 0).val + 44 * ((i 1).val / 512) + 43 < cfg0.N := by
      rw [show cfg0.N = 1408 from N_0]; omega
    obtain ⟨e0, e1, e2⟩ := Blocks.index_res ⟨176 * (i 0).val + 44 * ((i 1).val / 512) + 43, hn⟩
    refine ⟨⟨176 * (i 0).val + 44 * ((i 1).val / 512) + 43, hn⟩, (flush0_4 _).mpr (by
      show (176 * (i 0).val + 44 * ((i 1).val / 512) + 43) % 44 = 43; omega), ?_⟩
    show i ∈ ((View.whole main_v1).slice (win0_4.rect ⟨176 * (i 0).val + 44 * ((i 1).val / 512) + 43, hn⟩)).set
    rw [View.set_slice_whole, Rect.mem_set_unit]
    intro a
    match a with
    | ⟨0, _⟩ =>
      show win0_4.index ⟨176 * (i 0).val + 44 * ((i 1).val / 512) + 43, hn⟩ 0 * 1 ≤ (i 0).val
        ∧ (i 0).val < win0_4.index ⟨176 * (i 0).val + 44 * ((i 1).val / 512) + 43, hn⟩ 0 * 1 + 1
      rw [e0]; show (176 * (i 0).val + 44 * ((i 1).val / 512) + 43) / 176 * 1 ≤ (i 0).val ∧ (i 0).val < (176 * (i 0).val + 44 * ((i 1).val / 512) + 43) / 176 * 1 + 1; omega
    | ⟨1, _⟩ =>
      show win0_4.index ⟨176 * (i 0).val + 44 * ((i 1).val / 512) + 43, hn⟩ 1 * 512 ≤ (i 1).val
        ∧ (i 1).val < win0_4.index ⟨176 * (i 0).val + 44 * ((i 1).val / 512) + 43, hn⟩ 1 * 512 + 512
      rw [e1]; show (176 * (i 0).val + 44 * ((i 1).val / 512) + 43) / 44 % 4 * 512 ≤ (i 1).val ∧ (i 1).val < (176 * (i 0).val + 44 * ((i 1).val / 512) + 43) / 44 % 4 * 512 + 512; omega
    | ⟨2, _⟩ =>
      show win0_4.index ⟨176 * (i 0).val + 44 * ((i 1).val / 512) + 43, hn⟩ 2 * 2048 ≤ (i 2).val
        ∧ (i 2).val < win0_4.index ⟨176 * (i 0).val + 44 * ((i 1).val / 512) + 43, hn⟩ 2 * 2048 + 2048
      rw [e2]; omega

/-- The arrays the region finds, from the program's arguments: the rows split by expert by the program's first line, the
    weights untouched. -/
theorem layer_eq (c : Dev nD) :
    layer m c = out (shapeCast (s := RowsS) ActS (m ((c.tc : Thread nD τ).loc main_arg0)) (by decide))
      (m ((c.tc : Thread nD τ).loc main_arg1)) (m ((c.tc : Thread nD τ).loc main_arg3)) (m ((c.tc : Thread nD τ).loc main_arg2)) := by
  have ex : xArr m c = shapeCast (s := RowsS) ActS (m ((c.tc : Thread nD τ).loc main_arg0)) (by decide) := by
    show StableHlo.after hostOps0 (fun b => m (c, b)) (Proc.devRef .tc main_v0) = _
    after_results
    rfl
  show out (xArr m c) (w1Arr m c) (w3Arr m c) (w2Arr m c) = _
  rw [ex, show w1Arr m c = _ from V_main_arg1 m c, show w3Arr m c = _ from V_main_arg3 m c,
    show w2Arr m c = _ from V_main_arg2 m c]

/-- The program's last line stacks the result array's rows: its result is the whole computation of the arguments. -/
theorem tail_eq (c : Dev nD) :
    Pipeline.afterTail₀ cfgs (dats m) 0 (V0 m) [hostOps1] c main_v2
      = whole (m ((c.tc : Thread nD τ).loc main_arg0)) (m ((c.tc : Thread nD τ).loc main_arg1))
          (m ((c.tc : Thread nD τ).loc main_arg3)) (m ((c.tc : Thread nD τ).loc main_arg2)) := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v1)
      = layer m c := (Pipeline.withArrays_arr spec0 launch0.win.arr_inj c _ _ 4).trans (final m c)
  rw [hw, layer_eq]
  rfl

/-- THE RUN, READ: every weakly fair execution ends with the program's result at the whole computation of its arguments,
    and the arguments as they were. -/
theorem run : θ_run defs (onTc (τ := τ) (main (F := Ideal))) ⟨m, fun _ => 0, ρ⟩ fun r => ∀ c : Dev nD,
      r.2.mem ((c.tc : Thread nD τ).loc main_v2)
        = whole (m ((c.tc : Thread nD τ).loc main_arg0)) (m ((c.tc : Thread nD τ).loc main_arg1))
            (m ((c.tc : Thread nD τ).loc main_arg3)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v2 (Pipeline.mem_restRefs_of main_v2 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 3).trans (((dats m 0 c).arrAt_in 3 rfl _).trans ((A_eq m c 3).trans (V_main_arg2 m c))),
      ((h c).1 2).trans (((dats m 0 c).arrAt_in 2 rfl _).trans ((A_eq m c 2).trans (V_main_arg3 m c)))⟩)
    (run_main m ρ)

end Cert.GatedFfn.Result

end
-- ==== Proof.lean ====
/-
  The eight-expert gated feed-forward layer, computed by a kernel in tiles, equals the plain layer.

  Both programs take 16384 rows of width 2048 and three weights per expert. Each splits the rows into eight experts'
  2048 rows, maps row `g` of expert `e` to

      out[e, g, q] = ∑ f < 5632, (a · logistic a · b) · w2[e, f, q],   a = ∑ d, x[e, g, d] · w1[e, d, f],   b = ∑ d, x[e, g, d] · w3[e, d, f],

  and stacks the rows again. The reference takes the three sums whole and writes `logistic a` as `1 / (1 + exp (−a))`,
  which is its definition. The kernel walks a grid of 8 experts by 4 tiles of 512 rows by 44 tiles of 128 hidden columns;
  at each point it adds one hidden tile's share of the last sum to a running block that it zeroes at hidden tile 0 and
  copies to the result after hidden tile 43. Over the extended reals a change of float format is the identity and
  addition is commutative and associative, so the 44 shares added one at a time from zero are the whole sum: no
  finiteness of the inputs is used.

  Spec.lean states the layer and the regrouping of its last sum; RefValue.lean reads the reference as the layer;
  Payload.lean reads one point's arithmetic, Pieces.lean and Steps.lean what a point leaves behind, Blocks.lean where a
  point's blocks sit in the arrays, Accumulate.lean the running block as a partial sum by induction over the hidden
  tiles, Result.lean the result array and the program's run. The three frames are the generated ones; nothing was
  rewritten between the kernel and its idealization, so that claim is `True`.
-/
import proofs.«182208_j1889785610412_1_alg».proof.Defs
import proofs.«182208_j1889785610412_1_alg».proof.Proof.Gen.Kernel
import proofs.«182208_j1889785610412_1_alg».proof.Proof.Gen.Kernel.Frame
import proofs.«182208_j1889785610412_1_alg».proof.Proof.Gen.KernelIdeal
import proofs.«182208_j1889785610412_1_alg».proof.Proof.Gen.KernelIdeal.Frame
import proofs.«182208_j1889785610412_1_alg».proof.Proof.Gen.ReferenceIdeal
import proofs.«182208_j1889785610412_1_alg».proof.Proof.Gen.ReferenceIdeal.Run
import proofs.«182208_j1889785610412_1_alg».proof.Proof.Gen.ReferenceIdeal.Read
import proofs.«182208_j1889785610412_1_alg».proof.Proof.Gen.Pre_finite_inputs
import proofs.«182208_j1889785610412_1_alg».proof.Proof.RefValue
import proofs.«182208_j1889785610412_1_alg».proof.Proof.Result
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does the kernel read at the ideal values. -/
theorem frame_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the four arguments, both programs end with their result at the whole computation of
    those arguments: the kernel by its run read through the tiles, the reference by its run read operation by operation. -/
theorem algebraic : Cert.algebraic_KernelIdeal_ReferenceIdeal := by
  intro m ρ m' ρ' _ hagree
  refine ⟨fun c => Cert.GatedFfn.whole
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg2)),
    Cert.GatedFfn.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v6_eq _ _ _ _).trans (Cert.GatedFfn.Ref.whole_eq _ _ _ _)

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
